-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S2097152x16 : Shape := ⟨2, ![2097152, 16]⟩
abbrev S64x32 : Shape := ⟨2, ![64, 32]⟩
abbrev S16x64 : Shape := ⟨2, ![16, 64]⟩
abbrev S64x31 : Shape := ⟨2, ![64, 31]⟩
abbrev S64x64 : Shape := ⟨2, ![64, 64]⟩
abbrev S3x64 : Shape := ⟨2, ![3, 64]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S2097152x16 : S_.BroadcastsInDim S2097152x16 (![] : Fin 0 → Fin S2097152x16.rank)
  reducesTo_S2097152x16_S_d0_1 : S2097152x16.ReducesTo [0, 1] S_
  bcast_S_S64x32 : S_.BroadcastsInDim S64x32 (![] : Fin 0 → Fin S64x32.rank)
  reducesTo_S64x32_S_d0_1 : S64x32.ReducesTo [0, 1] S_
  bcast_S_S16x64 : S_.BroadcastsInDim S16x64 (![] : Fin 0 → Fin S16x64.rank)
  reducesTo_S16x64_S_d0_1 : S16x64.ReducesTo [0, 1] S_
  bcast_S_S64x31 : S_.BroadcastsInDim S64x31 (![] : Fin 0 → Fin S64x31.rank)
  reducesTo_S64x31_S_d0_1 : S64x31.ReducesTo [0, 1] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg7 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg4 : FVec F S64x31 .f32) (main_arg5 : FVec F S64x64 .f32) (main_arg6 : FVec F S64x64 .f32) (main_arg7 : FVec F S3x64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64x31 .f32 := Host.absf main_arg4
  let main_cst_6 : FVec F S_ .f32 := constant S_ .f32 0x7F800000#32
  let main_v20 : FVec F S64x31 .f32 := broadcastInDim S64x31 ![] bcast_S_S64x31 main_cst_6
  let main_v21 : IVec S64x31 1 := cmpf .olt main_v19 main_v20
  let main_c_7 : IVec S_ 1 := constantI S_ 1 1#1
  let main_v22 : IVec S_ 1 := (fun x v => Host.reduce IntOp.andi x v reducesTo_S64x31_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S2097152x32 .f32) (main_arg1 : FVec F S2097152x16 .f32) (main_arg2 : FVec F S64x32 .f32) (main_arg3 : FVec F S16x64 .f32) (main_arg4 : FVec F S64x31 .f32) (main_arg5 : FVec F S64x64 .f32) (main_arg6 : FVec F S64x64 .f32) (main_arg7 : FVec F S3x64 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S2097152x16 .f32 := Host.absf main_arg1
  let main_cst_0 : FVec F S_ .f32 := constant S_ .f32 0x7F800000#32
  let main_v5 : FVec F S2097152x16 .f32 := broadcastInDim S2097152x16 ![] bcast_S_S2097152x16 main_cst_0
  let main_v6 : IVec S2097152x16 1 := cmpf .olt main_v4 main_v5
  let main_c_1 : IVec S_ 1 := constantI S_ 1 1#1
  let main_v7 : IVec S_ 1 := (fun x v => Host.reduce IntOp.andi x v reducesTo_S2097152x16_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_v13 main_v16
-- ==== Kernel.lean ====
abbrev S2097152x32 : Shape := ⟨2, ![2097152, 32]⟩
abbrev S2097152x16 : Shape := ⟨2, ![2097152, 16]⟩
abbrev S64x32 : Shape := ⟨2, ![64, 32]⟩
abbrev S16x64 : Shape := ⟨2, ![16, 64]⟩
abbrev S64x31 : Shape := ⟨2, ![64, 31]⟩
abbrev S64x64 : Shape := ⟨2, ![64, 64]⟩
abbrev S3x64 : Shape := ⟨2, ![3, 64]⟩
abbrev S32x64 : Shape := ⟨2, ![32, 64]⟩
abbrev S64x16 : Shape := ⟨2, ![64, 16]⟩
abbrev S31x64 : Shape := ⟨2, ![31, 64]⟩
abbrev S15x64 : Shape := ⟨2, ![15, 64]⟩
abbrev S64x3 : Shape := ⟨2, ![64, 3]⟩
abbrev S2097152x4 : Shape := ⟨2, ![2097152, 4]⟩
abbrev S4096x32 : Shape := ⟨2, ![4096, 32]⟩
abbrev S4096x16 : Shape := ⟨2, ![4096, 16]⟩
abbrev S4096x4 : Shape := ⟨2, ![4096, 4]⟩
abbrev S4096x64 : Shape := ⟨2, ![4096, 64]⟩
abbrev S4096x1 : Shape := ⟨2, ![4096, 1]⟩
abbrev S4096x15 : Shape := ⟨2, ![4096, 15]⟩
abbrev S4096x3 : Shape := ⟨2, ![4096, 3]⟩

abbrev nBuf : Space → Nat
  | .hbm => 17
  | .vmem => 13
  | .smem => 0
  | _ => 0

abbrev bufTy : (tb : Table) → Fin (tcTables nBuf tb) → BufTy
  | .hbm, ⟨0, _⟩ => ⟨S2097152x32, .f32⟩
  | .hbm, ⟨1, _⟩ => ⟨S2097152x16, .f32⟩
  | .hbm, ⟨2, _⟩ => ⟨S64x32, .f32⟩
  | .hbm, ⟨3, _⟩ => ⟨S16x64, .f32⟩
  | .hbm, ⟨4, _⟩ => ⟨S64x31, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S32x64, .f32⟩
  | .hbm, ⟨9, _⟩ => ⟨S64x16, .f32⟩
  | .hbm, ⟨10, _⟩ => ⟨S31x64, .f32⟩
  | .hbm, ⟨11, _⟩ => ⟨S16x64, .f32⟩
  | .hbm, ⟨12, _⟩ => ⟨S15x64, .f32⟩
  | .hbm, ⟨13, _⟩ => ⟨S64x64, .f32⟩
  | .hbm, ⟨14, _⟩ => ⟨S64x64, .f32⟩
  | .hbm, ⟨15, _⟩ => ⟨S64x3, .f32⟩
  | .hbm, ⟨16, _⟩ => ⟨S2097152x4, .f32⟩
  | .local _ .vmem, ⟨0, _⟩ => ⟨S4096x32, .f32⟩
  | .local _ .vmem, ⟨1, _⟩ => ⟨S4096x32, .f32⟩
  | .local _ .vmem, ⟨2, _⟩ => ⟨S4096x16, .f32⟩
  | .local _ .vmem, ⟨3, _⟩ => ⟨S4096x16, .f32⟩
  | .local _ .vmem, ⟨4, _⟩ => ⟨S32x64, .f32⟩
  | .local _ .vmem, ⟨5, _⟩ => ⟨S64x16, .f32⟩
  | .local _ .vmem, ⟨6, _⟩ => ⟨S16x64, .f32⟩
  | .local _ .vmem, ⟨7, _⟩ => ⟨S15x64, .f32⟩
  | .local _ .vmem, ⟨8, _⟩ => ⟨S64x64, .f32⟩
  | .local _ .vmem, ⟨9, _⟩ => ⟨S64x64, .f32⟩
  | .local _ .vmem, ⟨10, _⟩ => ⟨S64x3, .f32⟩
  | .local _ .vmem, ⟨11, _⟩ => ⟨S4096x4, .f32⟩
  | .local _ .vmem, ⟨12, _⟩ => ⟨S4096x4, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S64x32_S32x64_1_0 : S64x32.Transposes [1, 0] S32x64
  transposes_S16x64_S64x16_1_0 : S16x64.Transposes [1, 0] S64x16
  transposes_S64x31_S31x64_1_0 : S64x31.Transposes [1, 0] S31x64
  slices_S31x64_S16x64_0_0 : S31x64.Slices ![0, 0] S16x64
  slices_S31x64_S15x64_16_0 : S31x64.Slices ![16, 0] S15x64
  transposes_S64x64_S64x64_1_0 : S64x64.Transposes [1, 0] S64x64
  transposes_S3x64_S64x3_1_0 : S3x64.Transposes [1, 0] S64x3
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S4096x16_o0_0_S4096x1 : S4096x16.Slices ![0, 0] S4096x1
  slices_S4096x16_o0_1_S4096x15 : S4096x16.Slices ![0, 1] S4096x15
  inb_S4096x16_S4096x16_0_0 : ∀ a, (![0, 0] : Fin 2 → Nat) a + S4096x16.size a ≤ S4096x16.size a
  h_S4096x16 : 0 < S4096x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S15x64_S15x64_0_0 : ∀ a, (![0, 0] : Fin 2 → Nat) a + S15x64.size a ≤ S15x64.size a
  h_S15x64 : 0 < S15x64.numel
  shapeCasts_S15x64_S15x64 : S15x64.ShapeCasts S15x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S4096x4_S4096x3_0_0 : ∀ a, (![0, 0] : Fin 2 → Nat) a + S4096x3.size a ≤ S4096x4.size a
  h_S4096x3 : 0 < S4096x3.numel
  inb_S4096x4_S4096x1_0_3 : ∀ a, (![0, 3] : Fin 2 → Nat) a + S4096x1.size a ≤ S4096x4.size a
  h_S4096x1 : 0 < S4096x1.numel
  dot_S4096x32_S32x64_S4096x64_1_0_0_1_n_n_wf : DotDims.WF S4096x32 S32x64 S4096x64 [1] [0] [0] [1] [] []
  dot_S4096x64_S64x16_S4096x16_1_0_0_1_n_n_wf : DotDims.WF S4096x64 S64x16 S4096x16 [1] [0] [0] [1] [] []
  dot_S4096x16_S16x64_S4096x64_1_0_0_1_n_n_wf : DotDims.WF S4096x16 S16x64 S4096x64 [1] [0] [0] [1] [] []
  dot_S4096x15_S15x64_S4096x64_1_0_0_1_n_n_wf : DotDims.WF S4096x15 S15x64 S4096x64 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S2097152x32.size a
  hwx0_0 : ∀ i : grid0.Coords, EltTy.bits .f32 = 32 ∨ (Rect.block (s := S2097152x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S2097152x16.size a
  hwx0_1 : ∀ i : grid0.Coords, EltTy.bits .f32 = 32 ∨ (Rect.block (s := S2097152x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x64.size a ≤ S15x64.size a
  hwx0_5 : ∀ i : grid0.Coords, EltTy.bits .f32 = 32 ∨ (Rect.block (s := S15x64) S15x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x3.size a ≤ S64x3.size a
  hwx0_8 : ∀ i : grid0.Coords, EltTy.bits .f32 = 32 ∨ (Rect.block (s := S64x3) S64x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x4.size a ≤ S2097152x4.size a
  hwx0_9 : ∀ i : grid0.Coords, EltTy.bits .f32 = 32 ∨ (Rect.block (s := S2097152x4) S4096x4.size (cc0_transform_9 i) (hinb0_9 i)).WholeWords (EltTy.packing .f32)

variable [Facts₀]

def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf
def dot_S4096x15_S15x64_S4096x64_1_0_0_1_n_n : DotDims S4096x15 S15x64 S4096x64 where
  lhsContracting := [1]
  rhsContracting := [0]
  lhsNonContracting := [0]
  rhsNonContracting := [1]
  lhsBatch := []
  rhsBatch := []
  wf := dot_S4096x15_S15x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S15x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4096x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S2097152x16 : Shape := ⟨2, ![2097152, 16]⟩
abbrev S64x32 : Shape := ⟨2, ![64, 32]⟩
abbrev S16x64 : Shape := ⟨2, ![16, 64]⟩
abbrev S64x31 : Shape := ⟨2, ![64, 31]⟩
abbrev S64x64 : Shape := ⟨2, ![64, 64]⟩
abbrev S3x64 : Shape := ⟨2, ![3, 64]⟩
abbrev S32x64 : Shape := ⟨2, ![32, 64]⟩
abbrev S2097152x64 : Shape := ⟨2, ![2097152, 64]⟩
abbrev S_ : Shape := ⟨0, ![]⟩
abbrev S64x16 : Shape := ⟨2, ![64, 16]⟩
abbrev S2097152x1 : Shape := ⟨2, ![2097152, 1]⟩
abbrev S2097152 : Shape := ⟨1, ![2097152]⟩
abbrev S2097152x15 : Shape := ⟨2, ![2097152, 15]⟩
abbrev S2097152x31 : Shape := ⟨2, ![2097152, 31]⟩
abbrev S31x64 : Shape := ⟨2, ![31, 64]⟩
abbrev S64x3 : Shape := ⟨2, ![64, 3]⟩
abbrev S2097152x3 : Shape := ⟨2, ![2097152, 3]⟩
abbrev S2097152x4 : Shape := ⟨2, ![2097152, 4]⟩

abbrev nBuf : Space → Nat
  | .hbm => 38
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S2097152x16, .f32⟩
  | .hbm, ⟨2, _⟩ => ⟨S64x32, .f32⟩
  | .hbm, ⟨3, _⟩ => ⟨S16x64, .f32⟩
  | .hbm, ⟨4, _⟩ => ⟨S64x31, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S32x64, .f32⟩
  | .hbm, ⟨9, _⟩ => ⟨S2097152x64, .f32⟩
  | .hbm, ⟨10, _⟩ => ⟨S_, .f32⟩
  | .hbm, ⟨11, _⟩ => ⟨S2097152x64, .f32⟩
  | .hbm, ⟨12, _⟩ => ⟨S2097152x64, .f32⟩
  | .hbm, ⟨13, _⟩ => ⟨S64x16, .f32⟩
  | .hbm, ⟨14, _⟩ => ⟨S2097152x16, .f32⟩
  | .hbm, ⟨15, _⟩ => ⟨S2097152x1, .f32⟩
  | .hbm, ⟨16, _⟩ => ⟨S2097152, .f32⟩
  | .hbm, ⟨17, _⟩ => ⟨S2097152x15, .f32⟩
  | .hbm, ⟨18, _⟩ => ⟨S2097152x31, .f32⟩
  | .hbm, ⟨19, _⟩ => ⟨S31x64, .f32⟩
  | .hbm, ⟨20, _⟩ => ⟨S2097152x64, .f32⟩
  | .hbm, ⟨21, _⟩ => ⟨S_, .f32⟩
  | .hbm, ⟨22, _⟩ => ⟨S2097152x64, .f32⟩
  | .hbm, ⟨23, _⟩ => ⟨S2097152x64, .f32⟩
  | .hbm, ⟨24, _⟩ => ⟨S64x64, .f32⟩
  | .hbm, ⟨25, _⟩ => ⟨S2097152x64, .f32⟩
  | .hbm, ⟨26, _⟩ => ⟨S_, .f32⟩
  | .hbm, ⟨27, _⟩ => ⟨S2097152x64, .f32⟩
  | .hbm, ⟨28, _⟩ => ⟨S2097152x64, .f32⟩
  | .hbm, ⟨29, _⟩ => ⟨S64x64, .f32⟩
  | .hbm, ⟨30, _⟩ => ⟨S2097152x64, .f32⟩
  | .hbm, ⟨31, _⟩ => ⟨S_, .f32⟩
  | .hbm, ⟨32, _⟩ => ⟨S2097152x64, .f32⟩
  | .hbm, ⟨33, _⟩ => ⟨S2097152x64, .f32⟩
  | .hbm, ⟨34, _⟩ => ⟨S64x3, .f32⟩
  | .hbm, ⟨35, _⟩ => ⟨S2097152x3, .f32⟩
  | .hbm, ⟨36, _⟩ => ⟨S2097152x1, .f32⟩
  | .hbm, ⟨37, _⟩ => ⟨S2097152x4, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_cst : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call3_cst : Ref sig .tc := ⟨.hbm, 31, rfl⟩
abbrev main_call3_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  transposes_S64x32_S32x64_1_0 : S64x32.Transposes [1, 0] S32x64
  bcast_S_S2097152x64 : S_.BroadcastsInDim S2097152x64 (![] : Fin 0 → Fin S2097152x64.rank)
  transposes_S16x64_S64x16_1_0 : S16x64.Transposes [1, 0] S64x16
  slices_S2097152x16_S2097152x1_0_0 : S2097152x16.Slices ![0, 0] S2097152x1
  shapeCasts_S2097152x1_S2097152 : S2097152x1.ShapeCasts S2097152
  slices_S2097152x16_S2097152x15_0_1 : S2097152x16.Slices ![0, 1] S2097152x15
  concatenates_S2097152x16_S2097152x15_S2097152x31_d1 : Shape.Concatenates [S2097152x16, S2097152x15] S2097152x31 1
  transposes_S64x31_S31x64_1_0 : S64x31.Transposes [1, 0] S31x64
  transposes_S64x64_S64x64_1_0 : S64x64.Transposes [1, 0] S64x64
  transposes_S3x64_S64x3_1_0 : S3x64.Transposes [1, 0] S64x3
  bcast_S2097152_S2097152x1_0 : S2097152.BroadcastsInDim S2097152x1 (![0] : Fin 1 → Fin S2097152x1.rank)
  concatenates_S2097152x3_S2097152x1_S2097152x4_d1 : Shape.Concatenates [S2097152x3, S2097152x1] S2097152x4 1
  dot_S2097152x32_S32x64_S2097152x64_1_0_0_1_n_n_wf : DotDims.WF S2097152x32 S32x64 S2097152x64 [1] [0] [0] [1] [] []
  dot_S2097152x64_S64x16_S2097152x16_1_0_0_1_n_n_wf : DotDims.WF S2097152x64 S64x16 S2097152x16 [1] [0] [0] [1] [] []
  dot_S2097152x31_S31x64_S2097152x64_1_0_0_1_n_n_wf : DotDims.WF S2097152x31 S31x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf
def dot_S2097152x31_S31x64_S2097152x64_1_0_0_1_n_n : DotDims S2097152x31 S31x64 S2097152x64 where
  lhsContracting := [1]
  rhsContracting := [0]
  lhsNonContracting := [0]
  rhsNonContracting := [1]
  lhsBatch := []
  rhsBatch := []
  wf := dot_S2097152x31_S31x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.LibMatLayout.lean ====
/-
  Two layout operations on matrices read at an entry given by its coordinates, for any extents.
  * A unit-stride rectangular piece of a matrix `[n, m]`, `a` rows by `b` columns starting at `(o₀, o₁)`: its entry
    `(p, q)` is the matrix at `(o₀ + p, o₁ + q)` (`slice2_apply`; the target index is a parameter with its two
    coordinate equations, so that a caller may spell `0 + k` as `k`).
  * A column `[n, 1]` repeated along the columns to `[n, b]`: its entry `(p, q)` is the column at `(p, 0)`
    (`colBcast_apply`).
-/
import Idealize.ShloMosaic.Lib.ValueLayout

namespace Cert.MatLayout

open Idealize.ShloMosaic Idealize.ShloMosaic.ValueIdx

variable {α : Type}

/-- Entry `(p, q)` of the `a × b` piece of `x` at offsets `(o₀, o₁)` is `x` at `(i, j)` with `i = o₀ + p`, `j = o₁ + q`. -/
theorem slice2_apply {n m a b : ℕ} (off : Fin 2 → ℕ) (x : (⟨2, ![n, m]⟩ : Shape).Idx → α)
    (h : (⟨2, ![n, m]⟩ : Shape).Slices off ⟨2, ![a, b]⟩) (p : Fin a) (q : Fin b) (i : Fin n) (j : Fin m)
    (hi : i.val = off 0 + p.val) (hj : j.val = off 1 + q.val) :
    extractStridedSlice ⟨2, ![a, b]⟩ off x h (ix2 p q) = x (ix2 i j) :=
  extractStridedSlice_apply off x h (ix2 p q) (ix2 i j) fun ax => by
    match ax with
    | ⟨0, _⟩ => exact hi
    | ⟨1, _⟩ => exact hj

/-- Entry `(p, q)` of a column repeated along the columns is the column's entry `(p, 0)`. -/
theorem colBcast_apply {n b : ℕ} (x : (⟨2, ![n, 1]⟩ : Shape).Idx → α)
    (h : (⟨2, ![n, 1]⟩ : Shape).Broadcasts ⟨2, ![n, b]⟩) (p : Fin n) (q : Fin b) :
    broadcastTo ⟨2, ![n, b]⟩ x h (ix2 p q) = x (ix2 p (0 : Fin 1)) := by
  refine broadcastTo_apply x h (ix2 p q) (ix2 p (0 : Fin 1)) fun ax => ?_
  match ax with
  | ⟨0, _⟩ =>
    show p.val = if n = 1 then 0 else p.val
    split
    · have := p.isLt; omega
    · rfl
  | ⟨1, _⟩ => rfl

end Cert.MatLayout
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.RowNet.lean ====
/-
  A two-stage multilayer perceptron applied to every row of a batch, as a function of ONE row.

  A row carries 32 hash features `hf` and 16 spherical-harmonic features `sf`. With weight matrices already laid
  out input-major (`[in, out]`), the density stage is `dens = relu(hf · D0) · D1` (16 numbers); its entry 0 is the
  density `sigma`, its entries 1..15 feed the colour stage together with `sf`:
  `colour = relu(relu(relu(sf · C0a + dens[1:] · C0b) · C1) · C2) · C3` (3 numbers), where `C0a` is the first 16 rows
  of the colour stage's first matrix and `C0b` its last 15 rows. The result row is `(colour, sigma)`.
  Everything is over the extended reals: a linear layer is a finite sum of products, `relu x = max x 0`.

  Beside the definitions: a matrix product on the device (operands narrowed to bf16, which changes nothing at the
  ideal values, into the zero accumulator) and on the host, read at an entry, are the linear layer of that row;
  and a linear layer over 31 inputs, the first 16 from one family and the last 15 from another, against a matrix
  with 31 rows, is the sum of the two partial layers over the matrix's first 16 and last 15 rows.
-/
import Idealize.ShloMosaic.Lib.ValueIdx
import Idealize.ShloMosaic.Lib.ValueLayout
import Idealize.ShloMosaic.Lib.Pipeline.Value
import Idealize.ShloMosaic.PureOps.Ideal.Laws
import proofs.«104367_j89790586290648_1_alg».proof.Proof.LibPlainDot
import proofs.«104367_j89790586290648_1_alg».proof.Proof.LibMatLayout
import proofs.«104367_j89790586290648_1_alg».proof.Proof.LibRowLayout

noncomputable section

namespace Cert.RowNet

open Idealize.ShloMosaic Idealize.ShloMosaic.ValueIdx

/-- A matrix of extended reals with `a` rows and `b` columns. -/
abbrev Mat (a b : ℕ) : Type := (⟨2, ![a, b]⟩ : Shape).Idx → EReal

/-- The number the all-zero f32 word denotes. -/
abbrev z : EReal := Ideal.ofBits .f32 0x00000000#32

/-- Row `p` of a matrix. -/
def row {n K : ℕ} (x : Mat n K) (p : Fin n) : Fin K → EReal := fun k => x (ix2 p k)

/-- A linear layer without bias: `x · w`. -/
def lin {K N : ℕ} (x : Fin K → EReal) (w : Mat K N) : Fin N → EReal := fun j => ∑ k : Fin K, x k * w (ix2 k j)

/-- `max x 0`, entry by entry. -/
def relu {N : ℕ} (x : Fin N → EReal) : Fin N → EReal := fun j => max (x j) z

/-- The density stage of one row. -/
def densRow (hf : Fin 32 → EReal) (d0 : Mat 32 64) (d1 : Mat 64 16) : Fin 16 → EReal :=
  lin (relu (lin hf d0)) d1

/-- Entries 1..15 of a 16-vector. -/
def tail15 (v : Fin 16 → EReal) : Fin 15 → EReal := fun k => v ⟨k.val + 1, by have := k.isLt; omega⟩

/-- The colour stage's first layer before its relu: the two partial products added. -/
def mixRow (sf : Fin 16 → EReal) (df : Fin 15 → EReal) (c0a : Mat 16 64) (c0b : Mat 15 64) : Fin 64 → EReal :=
  fun j => lin sf c0a j + lin df c0b j

/-- The colour stage's second hidden layer of one row. -/
def hidRow (hf : Fin 32 → EReal) (sf : Fin 16 → EReal) (d0 : Mat 32 64) (d1 : Mat 64 16) (c0a : Mat 16 64)
    (c0b : Mat 15 64) (c1 : Mat 64 64) : Fin 64 → EReal :=
  relu (lin (relu (mixRow sf (tail15 (densRow hf d0 d1)) c0a c0b)) c1)

/-- The colour of one row from its second hidden layer. -/
def colorOf (h : Fin 64 → EReal) (c2 : Mat 64 64) (c3 : Mat 64 3) : Fin 3 → EReal :=
  lin (relu (lin h c2)) c3

/-- The result row: the three colours, then the density. -/
def outRow (hf : Fin 32 → EReal) (sf : Fin 16 → EReal) (d0 : Mat 32 64) (d1 : Mat 64 16) (c0a : Mat 16 64)
    (c0b : Mat 15 64) (c1 c2 : Mat 64 64) (c3 : Mat 64 3) : Fin 4 → EReal :=
  fun q => if h : q.val < 3 then colorOf (hidRow hf sf d0 d1 c0a c0b c1) c2 c3 ⟨q.val, h⟩ else densRow hf d0 d1 0

/-- The network on a batch of `n` rows: row `p` of the result is the result row of row `p` of the inputs. -/
def net {n : ℕ} (hash : Mat n 32) (sh : Mat n 16) (d0 : Mat 32 64) (d1 : Mat 64 16) (c0a : Mat 16 64)
    (c0b : Mat 15 64) (c1 c2 : Mat 64 64) (c3 : Mat 64 3) : Mat n 4 :=
  fun i => outRow (row hash (i 0)) (row sh (i 0)) d0 d1 c0a c0b c1 c2 c3 (i 1)

/-- The first 16 rows of a matrix with 31 rows. -/
def top16 (c0 : Mat 31 64) : Mat 16 64 :=
  fun i => c0 (ix2 (⟨(i 0).val, by have h : (i 0).val < 16 := (i 0).isLt; omega⟩ : Fin 31) (i 1))

/-- Its last 15 rows. -/
def bot15 (c0 : Mat 31 64) : Mat 15 64 :=
  fun i => c0 (ix2 (⟨16 + (i 0).val, by have h : (i 0).val < 15 := (i 0).isLt; omega⟩ : Fin 31) (i 1))

/-- The network with the colour stage's first matrix given whole. -/
def netW {n : ℕ} (hash : Mat n 32) (sh : Mat n 16) (d0 : Mat 32 64) (d1 : Mat 64 16) (c0 : Mat 31 64)
    (c1 c2 : Mat 64 64) (c3 : Mat 64 3) : Mat n 4 :=
  net hash sh d0 d1 (top16 c0) (bot15 c0) c1 c2 c3

theorem net_apply {n : ℕ} (hash : Mat n 32) (sh : Mat n 16) (d0 : Mat 32 64) (d1 : Mat 64 16) (c0a : Mat 16 64)
    (c0b : Mat 15 64) (c1 c2 : Mat 64 64) (c3 : Mat 64 3) (p : Fin n) (q : Fin 4) :
    net hash sh d0 d1 c0a c0b c1 c2 c3 (ix2 p q) = outRow (row hash p) (row sh p) d0 d1 c0a c0b c1 c2 c3 q := rfl

/-- The network reads only ONE row of the batch: two batches that agree on a row, with the same weights, give the same
    result row. -/
theorem net_congr {n N : ℕ} (h : Mat n 32) (H : Mat N 32) (s : Mat n 16) (S : Mat N 16)
    (d0 d0' : Mat 32 64) (d1 d1' : Mat 64 16) (a a' : Mat 16 64) (b b' : Mat 15 64) (c1 c1' c2 c2' : Mat 64 64)
    (c3 c3' : Mat 64 3) (j : (⟨2, ![n, 4]⟩ : Shape).Idx) (i : (⟨2, ![N, 4]⟩ : Shape).Idx)
    (eh : ∀ k, h (ix2 (j 0) k) = H (ix2 (i 0) k)) (es : ∀ k, s (ix2 (j 0) k) = S (ix2 (i 0) k))
    (e0 : ∀ y, d0' y = d0 y) (e1 : ∀ y, d1' y = d1 y) (ea : ∀ y, a' y = a y) (eb : ∀ y, b' y = b y)
    (ec1 : ∀ y, c1' y = c1 y) (ec2 : ∀ y, c2' y = c2 y) (ec3 : ∀ y, c3' y = c3 y) (eq : (j 1).val = (i 1).val) :
    net h s d0' d1' a' b' c1' c2' c3' j = net H S d0 d1 a b c1 c2 c3 i := by
  obtain rfl : d0' = d0 := funext e0
  obtain rfl : d1' = d1 := funext e1
  obtain rfl : a' = a := funext ea
  obtain rfl : b' = b := funext eb
  obtain rfl : c1' = c1 := funext ec1
  obtain rfl : c2' = c2 := funext ec2
  obtain rfl : c3' = c3 := funext ec3
  have r1 : row h (j 0) = row H (i 0) := funext eh
  have r2 : row s (j 0) = row S (i 0) := funext es
  have r3 : j 1 = i 1 := Fin.ext eq
  unfold net
  rw [r1, r2, r3]

/-! ## Matrix products read at an entry -/

/-- The device's product of two operands narrowed to bf16 (the right one first re-cast to its own shape) into the zero
    accumulator, at `(p, q)`: the linear layer of row `p`. -/
theorem dev_dense {n K N : ℕ} (d : DotDims ⟨2, ![n, K]⟩ ⟨2, ![K, N]⟩ ⟨2, ![n, N]⟩) (hd : d = DotDims.plain n K N)
    (x : FVec Ideal ⟨2, ![n, K]⟩ .f32) (w : FVec Ideal ⟨2, ![K, N]⟩ .f32)
    (hc : (⟨2, ![K, N]⟩ : Shape).ShapeCasts ⟨2, ![K, N]⟩) (h1 h2 : FTy.bf16.bits < FTy.f32.bits) (p : Fin n) (q : Fin N) :
    matmul d none (truncf .bf16 x h1) (truncf .bf16 (shapeCast ⟨2, ![K, N]⟩ w hc) h2)
        (constant ⟨2, ![n, N]⟩ .f32 0x00000000#32) (ix2 p q) = lin (row x p) w q := by
  rw [shapeCast_self]
  exact Cert.PlainDot.matmul_zero_apply d hd none _ _ p q

/-- The host's product at `(p, q)`: the linear layer of row `p`. -/
theorem host_dense {n K N : ℕ} (d : DotDims ⟨2, ![n, K]⟩ ⟨2, ![K, N]⟩ ⟨2, ![n, N]⟩) (hd : d = DotDims.plain n K N)
    (x : FVec Ideal ⟨2, ![n, K]⟩ .f32) (w : FVec Ideal ⟨2, ![K, N]⟩ .f32) (p : Fin n) (q : Fin N) :
    Host.dotGeneral d none x w (ix2 p q) = lin (row x p) w q :=
  Cert.PlainDot.dotGeneral_apply d hd none x w p q

/-! ## A layer over two joined blocks of inputs -/

/-- A linear layer over 31 inputs that are 16 values `sf` followed by 15 values `df`, against a matrix whose first 16
    rows are `c0a` and last 15 rows are `c0b`, is the sum of the two partial layers. -/
theorem lin_two_blocks (x : Fin 31 → EReal) (sf : Fin 16 → EReal) (df : Fin 15 → EReal) (c0 : Mat 31 64)
    (c0a : Mat 16 64) (c0b : Mat 15 64)
    (hx1 : ∀ k : Fin 16, x ⟨k.val, by have := k.isLt; omega⟩ = sf k)
    (hx2 : ∀ k : Fin 15, x ⟨16 + k.val, by have := k.isLt; omega⟩ = df k)
    (ha : ∀ (k : Fin 16) (j : Fin 64), c0a (ix2 k j) = c0 (ix2 (⟨k.val, by have := k.isLt; omega⟩ : Fin 31) j))
    (hb : ∀ (k : Fin 15) (j : Fin 64), c0b (ix2 k j) = c0 (ix2 (⟨16 + k.val, by have := k.isLt; omega⟩ : Fin 31) j))
    (j : Fin 64) : lin x c0 j = mixRow sf df c0a c0b j := by
  unfold mixRow lin
  exact Cert.PlainDot.sum_two_blocks (a := 16) (b := 15) rfl _ _ _
    (fun k => by rw [hx1, ha]) (fun k => by rw [hx2, hb])

/-- The first 16 rows, cut out as a unit-stride piece. -/
theorem slice_top16 (c0 : Mat 31 64) (h : (⟨2, ![31, 64]⟩ : Shape).Slices ![0, 0] ⟨2, ![16, 64]⟩) :
    extractStridedSlice ⟨2, ![16, 64]⟩ ![0, 0] c0 h = top16 c0 := by
  funext i
  obtain ⟨p, q, rfl⟩ : ∃ (p : Fin 16) (q : Fin 64), i = ix2 p q := ⟨i 0, i 1, eq_ix2 i⟩
  exact Cert.MatLayout.slice2_apply ![0, 0] c0 h p q ⟨p.val, by have := p.isLt; omega⟩ q
    (by show p.val = 0 + p.val; omega) (by show q.val = 0 + q.val; omega)

/-- The last 15 rows, cut out as a unit-stride piece. -/
theorem slice_bot15 (c0 : Mat 31 64) (h : (⟨2, ![31, 64]⟩ : Shape).Slices ![16, 0] ⟨2, ![15, 64]⟩) :
    extractStridedSlice ⟨2, ![15, 64]⟩ ![16, 0] c0 h = bot15 c0 := by
  funext i
  obtain ⟨p, q, rfl⟩ : ∃ (p : Fin 15) (q : Fin 64), i = ix2 p q := ⟨i 0, i 1, eq_ix2 i⟩
  exact Cert.MatLayout.slice2_apply ![16, 0] c0 h p q ⟨16 + p.val, by have := p.isLt; omega⟩ q
    (by show 16 + p.val = 16 + p.val; rfl) (by show q.val = 0 + q.val; omega)

end Cert.RowNet

end
-- ==== Proof.KerPay.lean ====
/-
  What the kernel body computes on one block of 4096 rows, read at an entry.

  The body's values are functions of the blocks it loads: the hash features `[4096, 32]`, the harmonic features
  `[4096, 16]` and the seven weight matrices, already input-major. Its density product, at `(p, j)`, is the density
  stage of row `p`; the column it keeps for the result is that stage's entry 0; its second colour hidden layer, at
  `(p, j)`, is `hidRow` of row `p` — the first colour layer being two products added, one over the harmonic
  features and one over the density stage's entries 1..15; and the colours at `(p, q)` are `colorOf` of that hidden
  row. Narrowing an operand to bf16 and re-casting a matrix to its own shape change nothing at the ideal values.
-/
import proofs.«104367_j89790586290648_1_alg».proof.Proof.Gen.KernelIdeal.Skeleton
import proofs.«104367_j89790586290648_1_alg».proof.Proof.RowNet

noncomputable section

namespace Cert.KernelIdeal.KerValue

open Cert.KernelIdeal Cert.KernelIdeal.Gen Cert.RowNet Idealize.ShloMosaic Idealize.ShloMosaic.ValueIdx

/-- The body's `relu`: the maximum with the splat of the zero word. -/
theorem dev_relu {s : Shape} (v : FVec Ideal s .f32) (i : s.Idx) :
    maximumf v (broadcast s (Scalar.ofBits (F := Ideal) .f32 0x00000000#32)) i = max (v i) z := rfl

/-- The density product at `(p, q)`. -/
theorem pay2_apply (v0 : Vec Ideal S4096x32 .f32) (v2 : Vec Ideal S32x64 .f32) (v9 : Vec Ideal S64x16 .f32)
    (p : Fin 4096) (q : Fin 16) :
    k0_pay2 (F := Ideal) v0 v2 v9 (ix2 p q) = densRow (row (n := 4096) (K := 32) v0 p) v2 v9 q := by
  unfold k0_pay2 densRow
  refine (dev_dense dot_S4096x64_S64x16_S4096x16_1_0_0_1_n_n rfl _ v9 _ _ _ p q).trans ?_
  refine congrArg (fun x => lin x v9 q) (funext fun k => ?_)
  refine (dev_relu _ _).trans (congrArg (max · z) ?_)
  exact dev_dense dot_S4096x32_S32x64_S4096x64_1_0_0_1_n_n rfl v0 v2 _ _ _ p k

/-- The density column kept for the result, at `(p, 0)`. -/
theorem pay3_apply (v0 : Vec Ideal S4096x32 .f32) (v2 : Vec Ideal S32x64 .f32) (v9 : Vec Ideal S64x16 .f32)
    (p : Fin 4096) (q : Fin 1) :
    k0_pay3 (F := Ideal) v0 v2 v9 (ix2 p q) = densRow (row (n := 4096) (K := 32) v0 p) v2 v9 0 := by
  unfold k0_pay3
  refine (Cert.MatLayout.slice2_apply ![0, 0] _ slices_S4096x16_o0_0_S4096x1 p q p (0 : Fin 16)
    (by show p.val = 0 + p.val; omega) (by show (0 : ℕ) = 0 + q.val; have := q.isLt; omega)).trans ?_
  exact pay2_apply v0 v2 v9 p 0

/-- The second colour hidden layer at `(p, q)`. -/
theorem pay4_apply (v0 : Vec Ideal S4096x32 .f32) (v2 : Vec Ideal S32x64 .f32) (v9 : Vec Ideal S64x16 .f32)
    (v15 : Vec Ideal S4096x16 .f32) (v18 : Vec Ideal S16x64 .f32) (v21 : Vec Ideal S15x64 .f32)
    (v29 : Vec Ideal S64x64 .f32) (p : Fin 4096) (q : Fin 64) :
    k0_pay4 (F := Ideal) v0 v2 v9 v15 v18 v21 v29 (ix2 p q)
      = hidRow (row (n := 4096) (K := 32) v0 p) (row (n := 4096) (K := 16) v15 p) v2 v9 v18 v21 v29 q := by
  unfold k0_pay4 hidRow
  refine (dev_relu _ _).trans (congrArg (max · z) ?_)
  refine (dev_dense dot_S4096x64_S64x64_S4096x64_1_0_0_1_n_n rfl _ v29 _ _ _ p q).trans ?_
  refine congrArg (fun x => lin x v29 q) (funext fun k => ?_)
  refine (dev_relu _ _).trans (congrArg (max · z) ?_)
  refine (addf_apply _ _ _).trans ?_
  refine congrArg₂ (· + ·) (dev_dense dot_S4096x16_S16x64_S4096x64_1_0_0_1_n_n rfl v15 v18 _ _ _ p k) ?_
  refine (dev_dense dot_S4096x15_S15x64_S4096x64_1_0_0_1_n_n rfl _ v21 _ _ _ p k).trans ?_
  refine congrArg (fun x => lin x v21 k) (funext fun j => ?_)
  refine (Cert.MatLayout.slice2_apply ![0, 1] _ slices_S4096x16_o0_1_S4096x15 p j p
    (⟨j.val + 1, by have := j.isLt; omega⟩ : Fin 16)
    (by show p.val = 0 + p.val; omega) (by show j.val + 1 = 1 + j.val; omega)).trans ?_
  exact pay2_apply v0 v2 v9 p _

/-- The colours at `(p, q)`, from the second hidden layer's block. -/
theorem pay1_apply (v35 : FVec Ideal S4096x64 .f32) (v36 : Vec Ideal S64x64 .f32) (v43 : Vec Ideal S64x3 .f32)
    (p : Fin 4096) (q : Fin 3) :
    k0_pay1 (F := Ideal) v35 v36 v43 (ix2 p q) = colorOf (row (n := 4096) (K := 64) v35 p) v36 v43 q := by
  unfold k0_pay1 colorOf
  refine (dev_dense dot_S4096x64_S64x3_S4096x3_1_0_0_1_n_n rfl _ v43 _ _ _ p q).trans ?_
  refine congrArg (fun x => lin x v43 q) (funext fun k => ?_)
  refine (dev_relu _ _).trans (congrArg (max · z) ?_)
  exact dev_dense dot_S4096x64_S64x64_S4096x64_1_0_0_1_n_n rfl v35 v36 _ _ _ p k

end Cert.KernelIdeal.KerValue

end
-- ==== Proof.KerBlock.lean ====
/-
  One grid point's result block, and the whole result array.

  At a grid point the body fills its `[4096, 4]` result block with two stores: the colours into columns 0..2 and the
  density into column 3. Read back, the block is the row network of the 4096 rows the point was given.
-/
import proofs.«104367_j89790586290648_1_alg».proof.Proof.Gen.KernelIdeal.Value
import proofs.«104367_j89790586290648_1_alg».proof.Proof.KerPay
import Idealize.ShloMosaic.Lib.Pipeline.Value
import Idealize.ShloMosaic.Lib.StableHlo.Run

set_option maxRecDepth 16384

noncomputable section

namespace Cert.KernelIdeal.KerValue

open Cert.KernelIdeal Cert.KernelIdeal.Gen Cert.RowNet Idealize.ShloMosaic Idealize.ShloMosaic.ValueIdx
open Idealize.ShloMosaic.Tactic Idealize.ShloMosaic.TcCoe Idealize.SL.Sem Idealize.ShloMosaic.StableHlo
open Idealize.ShloMosaic.Pipeline (Dat)

/-- The offsets of a load or store of a whole block: zero on both axes. -/
theorem zeros2 : (![0, 0] : Fin 2 → ℕ) = fun _ => 0 := funext fun a => by
  match a with
  | ⟨0, _⟩ => rfl
  | ⟨1, _⟩ => rfl

/-- What the body leaves in its result block, for any contents of the blocks it loads: the row network of those
    blocks. -/
theorem out_eq (c : Dev nD) (i : grid0.Coords) (arg1 : Memref sig .tc .vmem S4096x32 .f32) (harg1 : arg1.IsWhole) (arg2 : Memref sig .tc .vmem S4096x16 .f32) (harg2 : arg2.IsWhole) (arg3 : Memref sig .tc .vmem S32x64 .f32) (harg3 : arg3.IsWhole) (arg4 : Memref sig .tc .vmem S64x16 .f32) (harg4 : arg4.IsWhole) (arg5 : Memref sig .tc .vmem S16x64 .f32) (harg5 : arg5.IsWhole) (arg6 : Memref sig .tc .vmem S15x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x3 .f32) (harg9 : arg9.IsWhole) (arg10 : Memref sig .tc .vmem S4096x4 .f32) (harg10 : arg10.IsWhole)
    (x0 : Vec Ideal S4096x32 .f32) (x1 : Vec Ideal S4096x16 .f32) (x2 : Vec Ideal S32x64 .f32) (x3 : Vec Ideal S64x16 .f32) (x4 : Vec Ideal S16x64 .f32) (x5 : Vec Ideal S15x64 .f32) (x6 : Vec Ideal S64x64 .f32) (x7 : Vec Ideal S64x64 .f32) (x8 : Vec Ideal S64x3 .f32) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = net (n := 4096) x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  funext y
  refine View.canon_apply_of_pieces (net (n := 4096) x0 x1 x2 x3 x4 x5 x6 x7 x8) _ ?_ y (cover0_A_9 c i arg1 harg1 arg2 harg2 arg3 harg3 arg4 harg4 arg5 harg5 arg6 harg6 arg7 harg7 arg8 harg8 arg9 harg9 arg10 harg10 x0 x1 x2 x3 x4 x5 x6 x7 x8 y)
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread,
    View.ld_unit_zero (S := S4096x32) zeros2, View.ld_unit_zero (S := S4096x16) zeros2,
    View.ld_unit_zero (S := S32x64) zeros2, View.ld_unit_zero (S := S64x16) zeros2,
    View.ld_unit_zero (S := S16x64) zeros2, View.ld_unit_zero (S := S15x64) zeros2,
    View.ld_unit_zero (S := S64x64) zeros2, View.ld_unit_zero (S := S64x3) zeros2]
  intro p hp
  rcases List.mem_cons.mp hp with rfl | hp
  · intro x
    obtain ⟨a, b, rfl⟩ : ∃ (a : Fin 4096) (b : Fin 1), x = ix2 a b := ⟨x 0, x 1, eq_ix2 x⟩
    have e : (Rect.unit (s := S4096x4) ![0, 3] ![4096, 1] inb_S4096x4_S4096x1_0_3).emb (ix2 a b) = ix2 a (3 : Fin 4) :=
      funext fun ax => Fin.ext (by
        match ax with
        | ⟨0, _⟩ => show 0 + 1 * a.val = a.val; omega
        | ⟨1, _⟩ => show 3 + 1 * b.val = 3; have := b.isLt; omega)
    show k0_pay3 x0 x2 x3 (ix2 a b) = net (n := 4096) x0 x1 x2 x3 x4 x5 x6 x7 x8 _
    rw [e, net_apply, pay3_apply]
    unfold outRow
    rw [dif_neg (by decide)]
  · obtain rfl := List.mem_singleton.mp hp
    intro x
    obtain ⟨a, b, rfl⟩ : ∃ (a : Fin 4096) (b : Fin 3), x = ix2 a b := ⟨x 0, x 1, eq_ix2 x⟩
    have e : (Rect.unit (s := S4096x4) ![0, 0] ![4096, 3] inb_S4096x4_S4096x3_0_0).emb (ix2 a b)
        = ix2 a (⟨b.val, by have := b.isLt; omega⟩ : Fin 4) :=
      funext fun ax => Fin.ext (by
        match ax with
        | ⟨0, _⟩ => show 0 + 1 * a.val = a.val; omega
        | ⟨1, _⟩ => show 0 + 1 * b.val = b.val; omega)
    show k0_pay1 (k0_pay4 x0 x2 x3 x1 x4 x5 x6) x7 x8 (ix2 a b) = net (n := 4096) x0 x1 x2 x3 x4 x5 x6 x7 x8 _
    rw [e, net_apply, pay1_apply]
    have hr : row (n := 4096) (K := 64) (k0_pay4 (F := Ideal) x0 x2 x3 x1 x4 x5 x6) a
        = hidRow (row (n := 4096) (K := 32) x0 a) (row (n := 4096) (K := 16) x1 a) x2 x3 x4 x5 x6 :=
      funext fun k => pay4_apply x0 x2 x3 x1 x4 x5 x6 a k
    rw [hr]
    unfold outRow
    rw [dif_pos (show b.val < 3 from b.isLt)]

/-! ## From blocks to the array -/

variable (m : (ℓ : Loc nD τ sig) → Buf (Elt Ideal) ℓ) (ρ : Dev nD → PrngReg)

/-- The whole result as the region's arrays determine it: the row network of every row of the two feature arrays,
    with the seven weight matrices as the host operations before the region left them. -/
def result (c : Dev nD) : Vec Ideal S2097152x4 .f32 :=
  net (n := 2097152) (V m c main_arg0) (V m c main_arg1) (V m c main_v0) (V m c main_v1) (V m c main_v3) (V m c main_v4)
    (V m c main_v5) (V m c main_v6) (V m c main_v7)

/-- The printed index maps over the 512 grid points: the feature windows and the result window move together along
    the rows, one block per point; no window moves along the columns; the weight windows never move. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_9.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- WHAT POINT `t` WRITES BACK is block `t` of `result`: the point's feature blocks are rows
    `4096 t .. 4096 t + 4095` of the feature arrays, its weight blocks the whole weight arrays, and the network reads
    one row at a time. -/
theorem flushed_eq (c : Dev nD) (t : Fin cfg0.N) :
    (dats m 0 c).flushed 9 t = ((cfg0.win 9).blk t).view.read (Elt Ideal) (result m c) := by
  rw [Cert.KernelIdeal.Value.flushed9_A]
  refine (congrArg ((cfg0.win 9).cut (grid0.coords t))
    (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t))).trans ?_
  obtain ⟨f00, f01, f10, f11, f91, f20, f21, f30, f31, f40, f41, f50, f51, f60, f61, f70, f71, f80, f81⟩ := idx_facts t
  funext j
  show net (n := 4096) (iblk m c 0 t) (iblk m c 1 t) (iblk m c 2 t) (iblk m c 3 t) (iblk m c 4 t) (iblk m c 5 t) (iblk m c 6 t)
      (iblk m c 7 t) (iblk m c 8 t) j = result m c (((cfg0.win 9).blk t).view.emb j)
  unfold result
  refine net_congr (n := 4096) (N := 2097152) _ _ _ _ _ _ _ _ _ _ _ _ _ _ _ _ _ _ j _
    (fun k => ?_) (fun k => ?_) (fun y => ?_) (fun y => ?_) (fun y => ?_) (fun y => ?_) (fun y => ?_) (fun y => ?_)
    (fun y => ?_) ?_
  · show V m c main_arg0 (((cfg0.win 0).blk t).view.emb (ix2 (j 0) k)) = V m c main_arg0 (ix2 ((((cfg0.win 9).blk t).view.emb j) 0) k)
    refine congrArg (V m c main_arg0) (funext fun a => Fin.ext ?_)
    match a with
    | ⟨0, _⟩ => show win0_0.index t (0 : Fin 2) * 4096 + 1 * (j 0).val = win0_9.index t (0 : Fin 2) * 4096 + 1 * (j 0).val; rw [f00]
    | ⟨1, _⟩ => show win0_0.index t (1 : Fin 2) * 32 + 1 * k.val = k.val; rw [f01]; omega
  · show V m c main_arg1 (((cfg0.win 1).blk t).view.emb (ix2 (j 0) k)) = V m c main_arg1 (ix2 ((((cfg0.win 9).blk t).view.emb j) 0) k)
    refine congrArg (V m c main_arg1) (funext fun a => Fin.ext ?_)
    match a with
    | ⟨0, _⟩ => show win0_1.index t (0 : Fin 2) * 4096 + 1 * (j 0).val = win0_9.index t (0 : Fin 2) * 4096 + 1 * (j 0).val; rw [f10]
    | ⟨1, _⟩ => show win0_1.index t (1 : Fin 2) * 16 + 1 * k.val = k.val; rw [f11]; omega
  · show V m c main_v0 (((cfg0.win 2).blk t).view.emb y) = V m c main_v0 y
    refine congrArg (V m c main_v0) (funext fun a => Fin.ext ?_)
    match a with
    | ⟨0, _⟩ => show win0_2.index t (0 : Fin 2) * 32 + 1 * (y 0).val = (y 0).val; rw [f20]; omega
    | ⟨1, _⟩ => show win0_2.index t (1 : Fin 2) * 64 + 1 * (y 1).val = (y 1).val; rw [f21]; omega
  · show V m c main_v1 (((cfg0.win 3).blk t).view.emb y) = V m c main_v1 y
    refine congrArg (V m c main_v1) (funext fun a => Fin.ext ?_)
    match a with
    | ⟨0, _⟩ => show win0_3.index t (0 : Fin 2) * 64 + 1 * (y 0).val = (y 0).val; rw [f30]; omega
    | ⟨1, _⟩ => show win0_3.index t (1 : Fin 2) * 16 + 1 * (y 1).val = (y 1).val; rw [f31]; omega
  · show V m c main_v3 (((cfg0.win 4).blk t).view.emb y) = V m c main_v3 y
    refine congrArg (V m c main_v3) (funext fun a => Fin.ext ?_)
    match a with
    | ⟨0, _⟩ => show win0_4.index t (0 : Fin 2) * 16 + 1 * (y 0).val = (y 0).val; rw [f40]; omega
    | ⟨1, _⟩ => show win0_4.index t (1 : Fin 2) * 64 + 1 * (y 1).val = (y 1).val; rw [f41]; omega
  · show V m c main_v4 (((cfg0.win 5).blk t).view.emb y) = V m c main_v4 y
    refine congrArg (V m c main_v4) (funext fun a => Fin.ext ?_)
    match a with
    | ⟨0, _⟩ => show win0_5.index t (0 : Fin 2) * 15 + 1 * (y 0).val = (y 0).val; rw [f50]; omega
    | ⟨1, _⟩ => show win0_5.index t (1 : Fin 2) * 64 + 1 * (y 1).val = (y 1).val; rw [f51]; omega
  · show V m c main_v5 (((cfg0.win 6).blk t).view.emb y) = V m c main_v5 y
    refine congrArg (V m c main_v5) (funext fun a => Fin.ext ?_)
    match a with
    | ⟨0, _⟩ => show win0_6.index t (0 : Fin 2) * 64 + 1 * (y 0).val = (y 0).val; rw [f60]; omega
    | ⟨1, _⟩ => show win0_6.index t (1 : Fin 2) * 64 + 1 * (y 1).val = (y 1).val; rw [f61]; omega
  · show V m c main_v6 (((cfg0.win 7).blk t).view.emb y) = V m c main_v6 y
    refine congrArg (V m c main_v6) (funext fun a => Fin.ext ?_)
    match a with
    | ⟨0, _⟩ => show win0_7.index t (0 : Fin 2) * 64 + 1 * (y 0).val = (y 0).val; rw [f70]; omega
    | ⟨1, _⟩ => show win0_7.index t (1 : Fin 2) * 64 + 1 * (y 1).val = (y 1).val; rw [f71]; omega
  · show V m c main_v7 (((cfg0.win 8).blk t).view.emb y) = V m c main_v7 y
    refine congrArg (V m c main_v7) (funext fun a => Fin.ext ?_)
    match a with
    | ⟨0, _⟩ => show win0_8.index t (0 : Fin 2) * 64 + 1 * (y 0).val = (y 0).val; rw [f80]; omega
    | ⟨1, _⟩ => show win0_8.index t (1 : Fin 2) * 3 + 1 * (y 1).val = (y 1).val; rw [f81]; omega
  · show (j 1).val = win0_9.index t (1 : Fin 2) * 4 + 1 * (j 1).val
    rw [f91]; omega

/-- THE RESULT ARRAY after the run: every row lies in the block of the point `row / 4096`, so the 512 blocks cover the
    array and it holds `result`. -/
theorem final (c : Dev nD) : (dats m 0 c).arrAt 9 cfg0.N = result m c :=
  (dats m 0 c).arrAt_eq_of_cover 9 (result m c) (fun t _ => flushed_eq m c t) fun i => by
    have hi0 : (i 0).val < 2097152 := (i 0).isLt
    have hi1 : (i 1).val < 4 := (i 1).isLt
    have hN : grid0.N = 512 := N_0
    have ht : (i 0).val / 4096 < grid0.N := by rw [hN]; omega
    refine ⟨⟨(i 0).val / 4096, ht⟩, flush0_9 _, ?_⟩
    show i ∈ ((View.whole main_v8).slice (win0_9.rect ⟨(i 0).val / 4096, ht⟩)).set
    rw [View.set_slice_whole, Rect.mem_set_unit]
    have h90 : win0_9.index ⟨(i 0).val / 4096, ht⟩ (0 : Fin 2) = (i 0).val / 4096 :=
      Cert.KernelIdeal.Value.idx_pt9 ⟨(i 0).val / 4096, ht⟩
    have h91 : win0_9.index ⟨(i 0).val / 4096, ht⟩ (1 : Fin 2) = 0 := (idx_facts ⟨(i 0).val / 4096, ht⟩).2.2.2.2.1
    intro a
    match a with
    | ⟨0, _⟩ =>
      show win0_9.index ⟨(i 0).val / 4096, ht⟩ (0 : Fin 2) * 4096 ≤ (i 0).val
        ∧ (i 0).val < win0_9.index ⟨(i 0).val / 4096, ht⟩ (0 : Fin 2) * 4096 + 4096
      rw [h90]; omega
    | ⟨1, _⟩ =>
      show win0_9.index ⟨(i 0).val / 4096, ht⟩ (1 : Fin 2) * 4 ≤ (i 1).val
        ∧ (i 1).val < win0_9.index ⟨(i 0).val / 4096, ht⟩ (1 : Fin 2) * 4 + 4
      rw [h91]; omega

/-- The kernel's run with its result array named: it ends at `result`, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

/-- `result` from the launch contents: the weight arrays the region finds are the transposes the host operations
    before it made, and the two halves of the colour stage's first matrix are the first 16 and the last 15 rows of
    its transpose. -/
theorem result_eq (c : Dev nD) :
    result m c = netW (n := 2097152) (m ((c : Thread nD τ).loc main_arg0)) (m ((c : Thread nD τ).loc main_arg1))
      (transpose S32x64 [1, 0] (m ((c : Thread nD τ).loc main_arg2)) transposes_S64x32_S32x64_1_0)
      (transpose S64x16 [1, 0] (m ((c : Thread nD τ).loc main_arg3)) transposes_S16x64_S64x16_1_0)
      (transpose S31x64 [1, 0] (m ((c : Thread nD τ).loc main_arg4)) transposes_S64x31_S31x64_1_0)
      (transpose S64x64 [1, 0] (m ((c : Thread nD τ).loc main_arg5)) transposes_S64x64_S64x64_1_0)
      (transpose S64x64 [1, 0] (m ((c : Thread nD τ).loc main_arg6)) transposes_S64x64_S64x64_1_0)
      (transpose S64x3 [1, 0] (m ((c : Thread nD τ).loc main_arg7)) transposes_S3x64_S64x3_1_0) := by
  have e0 : (V m c main_v0 : S32x64.Idx → EReal)
      = transpose S32x64 [1, 0] (m ((c : Thread nD τ).loc main_arg2)) transposes_S64x32_S32x64_1_0 := by
    dsimp only [Gen.V, Gen.hostOps0]; after_results
  have e1 : (V m c main_v1 : S64x16.Idx → EReal)
      = transpose S64x16 [1, 0] (m ((c : Thread nD τ).loc main_arg3)) transposes_S16x64_S64x16_1_0 := by
    dsimp only [Gen.V, Gen.hostOps0]; after_results
  have e3 : (V m c main_v3 : S16x64.Idx → EReal)
      = extractStridedSlice S16x64 ![0, 0] (transpose S31x64 [1, 0] (m ((c : Thread nD τ).loc main_arg4)) transposes_S64x31_S31x64_1_0) slices_S31x64_S16x64_0_0 := by
    dsimp only [Gen.V, Gen.hostOps0]; after_results
  have e4 : (V m c main_v4 : S15x64.Idx → EReal)
      = extractStridedSlice S15x64 ![16, 0] (transpose S31x64 [1, 0] (m ((c : Thread nD τ).loc main_arg4)) transposes_S64x31_S31x64_1_0) slices_S31x64_S15x64_16_0 := by
    dsimp only [Gen.V, Gen.hostOps0]; after_results
  have e5 : (V m c main_v5 : S64x64.Idx → EReal)
      = transpose S64x64 [1, 0] (m ((c : Thread nD τ).loc main_arg5)) transposes_S64x64_S64x64_1_0 := by
    dsimp only [Gen.V, Gen.hostOps0]; after_results
  have e6 : (V m c main_v6 : S64x64.Idx → EReal)
      = transpose S64x64 [1, 0] (m ((c : Thread nD τ).loc main_arg6)) transposes_S64x64_S64x64_1_0 := by
    dsimp only [Gen.V, Gen.hostOps0]; after_results
  have e7 : (V m c main_v7 : S64x3.Idx → EReal)
      = transpose S64x3 [1, 0] (m ((c : Thread nD τ).loc main_arg7)) transposes_S3x64_S64x3_1_0 := by
    dsimp only [Gen.V, Gen.hostOps0]; after_results
  unfold result netW
  rw [e0, e1, e3, e4, e5, e6, e7, V_main_arg0, V_main_arg1, slice_top16, slice_bot15]

end Cert.KernelIdeal.KerValue

end
-- ==== Proof.RefNet.lean ====
/-
  The reference program computes the row network of every row.

  Stage by stage along the reference's operations, at row `r` of the batch: each matrix product is the linear layer
  of row `r` of its left operand; each `relu` is the entrywise `max · 0`; the column slice `[:, 1:16]` of the density
  stage's result gives its entries 1..15 and the slice `[:, 0:1]` its entry 0; the product of the joined block
  `[sh | density[1:]]` (31 columns) with the 31-row matrix is the sum of the two partial layers over the matrix's
  first 16 and last 15 rows; the last concatenation puts the three colours in columns 0..2 and the density in
  column 3.
-/
import proofs.«104367_j89790586290648_1_alg».proof.Proof.Gen.ReferenceIdeal.Read
import proofs.«104367_j89790586290648_1_alg».proof.Proof.RowNet

noncomputable section

namespace Cert.ReferenceIdeal.RefValue

open Cert.ReferenceIdeal Cert.ReferenceIdeal.Gen Cert.ReferenceIdeal.Read Cert.RowNet Idealize.ShloMosaic Idealize.ShloMosaic.ValueIdx

variable (x0 : (⟨S2097152x32, .f32⟩ : BufTy).Contents (Elt Ideal)) (x1 : (⟨S2097152x16, .f32⟩ : BufTy).Contents (Elt Ideal))
  (x2 : (⟨S64x32, .f32⟩ : BufTy).Contents (Elt Ideal)) (x3 : (⟨S16x64, .f32⟩ : BufTy).Contents (Elt Ideal))
  (x4 : (⟨S64x31, .f32⟩ : BufTy).Contents (Elt Ideal)) (x5 x6 : (⟨S64x64, .f32⟩ : BufTy).Contents (Elt Ideal))
  (x7 : (⟨S3x64, .f32⟩ : BufTy).Contents (Elt Ideal))

/-- The density stage's hidden layer, row `r`. -/
theorem v2_row (r : Fin 2097152) :
    row (n := 2097152) (K := 64) (val_main_v2 (F := Ideal) x0 x2) r
      = relu (lin (row (n := 2097152) (K := 32) x0 r) (val_main_v0 (F := Ideal) x2)) := by
  funext k
  show max (val_main_v1 (F := Ideal) x0 x2 (ix2 r k)) (val_main_call0_v0 (F := Ideal) (ix2 r k)) = max _ z
  unfold val_main_v1
  rw [host_dense dot_S2097152x32_S32x64_S2097152x64_1_0_0_1_n_n rfl]
  rfl

/-- The density stage's result, at `(r, j)`. -/
theorem v4_apply (r : Fin 2097152) (j : Fin 16) :
    val_main_v4 (F := Ideal) x0 x2 x3 (ix2 r j)
      = densRow (row (n := 2097152) (K := 32) x0 r) (val_main_v0 (F := Ideal) x2) (val_main_v3 (F := Ideal) x3) j := by
  unfold val_main_v4 densRow
  rw [host_dense dot_S2097152x64_S64x16_S2097152x16_1_0_0_1_n_n rfl, v2_row]

/-- The density stage's entries 1..15, at `(r, j)`. -/
theorem v7_apply (r : Fin 2097152) (j : Fin 15) :
    val_main_v7 (F := Ideal) x0 x2 x3 (ix2 r j)
      = tail15 (densRow (row (n := 2097152) (K := 32) x0 r) (val_main_v0 (F := Ideal) x2) (val_main_v3 (F := Ideal) x3)) j := by
  unfold val_main_v7
  refine (Cert.MatLayout.slice2_apply ![0, 1] _ slices_S2097152x16_S2097152x15_0_1 r j r
    ⟨j.val + 1, by have := j.isLt; omega⟩ (by show r.val = 0 + r.val; omega) (by show j.val + 1 = 1 + j.val; omega)).trans ?_
  exact v4_apply x0 x2 x3 r _

/-- The colour stage's first layer before its relu, at `(r, j)`: the joined block against the 31-row matrix is the
    two partial layers added. -/
theorem v10_apply (r : Fin 2097152) (j : Fin 64) :
    val_main_v10 (F := Ideal) x0 x1 x2 x3 x4 (ix2 r j)
      = mixRow (row (n := 2097152) (K := 16) x1 r)
          (tail15 (densRow (row (n := 2097152) (K := 32) x0 r) (val_main_v0 (F := Ideal) x2) (val_main_v3 (F := Ideal) x3)))
          (top16 (val_main_v9 (F := Ideal) x4)) (bot15 (val_main_v9 (F := Ideal) x4)) j := by
  unfold val_main_v10
  rw [host_dense dot_S2097152x31_S31x64_S2097152x64_1_0_0_1_n_n rfl]
  refine lin_two_blocks _ _ _ _ _ _ (fun k => ?_) (fun k => ?_) (fun _ _ => rfl) (fun _ _ => rfl) j
  · show val_main_v8 (F := Ideal) x0 x1 x2 x3 (ix2 r _) = x1 (ix2 r k)
    unfold val_main_v8
    rw [Cert.RowLayout.concatCols_apply (n := 2097152) (p := 16) (q := 15) (m := 31) _ _ _ rfl r _, dif_pos (show k.val < 16 from k.isLt)]
  · show val_main_v8 (F := Ideal) x0 x1 x2 x3 (ix2 r _) = _
    unfold val_main_v8
    rw [Cert.RowLayout.concatCols_apply (n := 2097152) (p := 16) (q := 15) (m := 31) _ _ _ rfl r _, dif_neg (show ¬(16 + k.val < 16) by omega)]
    refine Eq.trans ?_ (v7_apply x0 x2 x3 r k)
    exact congrArg (fun t => val_main_v7 (F := Ideal) x0 x2 x3 (ix2 r t)) (Fin.ext (by show 16 + k.val - 16 = k.val; omega))

/-- The colour stage's first hidden layer, row `r`. -/
theorem v11_row (r : Fin 2097152) :
    row (n := 2097152) (K := 64) (val_main_v11 (F := Ideal) x0 x1 x2 x3 x4) r
      = relu (mixRow (row (n := 2097152) (K := 16) x1 r)
          (tail15 (densRow (row (n := 2097152) (K := 32) x0 r) (val_main_v0 (F := Ideal) x2) (val_main_v3 (F := Ideal) x3)))
          (top16 (val_main_v9 (F := Ideal) x4)) (bot15 (val_main_v9 (F := Ideal) x4))) := by
  funext k
  show max (val_main_v10 (F := Ideal) x0 x1 x2 x3 x4 (ix2 r k)) (val_main_call1_v0 (F := Ideal) (ix2 r k)) = max _ z
  rw [v10_apply]
  rfl

/-- The colour stage's second hidden layer, row `r`. -/
theorem v14_row (r : Fin 2097152) :
    row (n := 2097152) (K := 64) (val_main_v14 (F := Ideal) x0 x1 x2 x3 x4 x5) r
      = hidRow (row (n := 2097152) (K := 32) x0 r) (row (n := 2097152) (K := 16) x1 r) (val_main_v0 (F := Ideal) x2)
          (val_main_v3 (F := Ideal) x3) (top16 (val_main_v9 (F := Ideal) x4)) (bot15 (val_main_v9 (F := Ideal) x4))
          (val_main_v12 (F := Ideal) x5) := by
  funext k
  show max (val_main_v13 (F := Ideal) x0 x1 x2 x3 x4 x5 (ix2 r k)) (val_main_call2_v0 (F := Ideal) (ix2 r k)) = max _ z
  unfold val_main_v13
  rw [host_dense dot_S2097152x64_S64x64_S2097152x64_1_0_0_1_n_n rfl, v11_row]
  rfl

/-- The colour stage's third hidden layer, row `r`. -/
theorem v17_row (r : Fin 2097152) :
    row (n := 2097152) (K := 64) (val_main_v17 (F := Ideal) x0 x1 x2 x3 x4 x5 x6) r
      = relu (lin (hidRow (row (n := 2097152) (K := 32) x0 r) (row (n := 2097152) (K := 16) x1 r) (val_main_v0 (F := Ideal) x2)
          (val_main_v3 (F := Ideal) x3) (top16 (val_main_v9 (F := Ideal) x4)) (bot15 (val_main_v9 (F := Ideal) x4))
          (val_main_v12 (F := Ideal) x5)) (val_main_v15 (F := Ideal) x6)) := by
  funext k
  show max (val_main_v16 (F := Ideal) x0 x1 x2 x3 x4 x5 x6 (ix2 r k)) (val_main_call3_v0 (F := Ideal) (ix2 r k)) = max _ z
  unfold val_main_v16
  rw [host_dense dot_S2097152x64_S64x64_S2097152x64_1_0_0_1_n_n rfl, v14_row]
  rfl

/-- The colours, at `(r, q)`. -/
theorem v19_apply (r : Fin 2097152) (q : Fin 3) :
    val_main_v19 (F := Ideal) x0 x1 x2 x3 x4 x5 x6 x7 (ix2 r q)
      = colorOf (hidRow (row (n := 2097152) (K := 32) x0 r) (row (n := 2097152) (K := 16) x1 r) (val_main_v0 (F := Ideal) x2)
          (val_main_v3 (F := Ideal) x3) (top16 (val_main_v9 (F := Ideal) x4)) (bot15 (val_main_v9 (F := Ideal) x4))
          (val_main_v12 (F := Ideal) x5)) (val_main_v15 (F := Ideal) x6) (val_main_v18 (F := Ideal) x7) q := by
  unfold val_main_v19 colorOf
  rw [host_dense dot_S2097152x64_S64x3_S2097152x3_1_0_0_1_n_n rfl, v17_row]

/-- The density column, at `(r, 0)`: entry 0 of the density stage's result. -/
theorem v20_apply (r : Fin 2097152) (q : Fin 1) :
    val_main_v20 (F := Ideal) x0 x2 x3 (ix2 r q)
      = densRow (row (n := 2097152) (K := 32) x0 r) (val_main_v0 (F := Ideal) x2) (val_main_v3 (F := Ideal) x3) 0 := by
  rw [val_main_v20_apply, val_main_v6_apply, val_main_v5_apply]
  have e : idx_main_v5 (idx_main_v6 (idx_main_v20 (ix2 r q))) = ix2 r (0 : Fin 16) := funext fun a => Fin.ext (by
    match a with
    | ⟨0, _⟩ => show r.val / 1 = r.val; exact Nat.div_one _
    | ⟨1, _⟩ => rfl)
  rw [e]
  exact v4_apply x0 x2 x3 r 0

/-- THE REFERENCE'S RESULT is the row network of every row, the colour stage's first matrix given whole. -/
theorem ref_eq :
    val_main_v21 (F := Ideal) x0 x1 x2 x3 x4 x5 x6 x7
      = netW (n := 2097152) x0 x1 (val_main_v0 (F := Ideal) x2) (val_main_v3 (F := Ideal) x3) (val_main_v9 (F := Ideal) x4)
          (val_main_v12 (F := Ideal) x5) (val_main_v15 (F := Ideal) x6) (val_main_v18 (F := Ideal) x7) := by
  funext i
  obtain ⟨r, q, rfl⟩ : ∃ (r : Fin 2097152) (q : Fin 4), i = ix2 r q := ⟨i 0, i 1, eq_ix2 i⟩
  unfold val_main_v21 netW
  rw [net_apply, Cert.RowLayout.concatCols_apply (n := 2097152) (p := 3) (q := 1) (m := 4) _ _ _ rfl r q]
  unfold outRow
  by_cases h : q.val < 3
  · rw [dif_pos h, dif_pos h]
    exact v19_apply x0 x1 x2 x3 x4 x5 x6 x7 r ⟨q.val, h⟩
  · rw [dif_neg h, dif_neg h]
    exact v20_apply x0 x2 x3 r _

end Cert.ReferenceIdeal.RefValue

end
-- ==== Proof.lean ====
/-
  A neural-field query network, fused into one streaming kernel, against its plain jnp reference.

  For each of 2,097,152 rows (32 hash features `hf`, 16 spherical-harmonic features `sf`) both programs compute
      dens   = relu(hf · D0ᵀ) · D1ᵀ                                     (16 numbers; entry 0 is the density sigma)
      colour = relu(relu(relu([sf | dens[1:]] · C0ᵀ) · C1ᵀ) · C2ᵀ) · C3ᵀ   (3 numbers)
  and return the row `(colour, sigma)`. The kernel walks the rows in 512 blocks of 4096 with the seven transposed
  weight matrices resident, narrows every matrix-product operand to bf16 (the identity at the ideal values), and
  replaces the product of the joined block `[sf | dens[1:]]` with the 31-row matrix `C0ᵀ` by two products added,
  one with the first 16 rows of `C0ᵀ` and one with its last 15 rows. Over the extended reals the two are equal
  because a sum over 31 positions is the sum over the first 16 plus the sum over the last 15; nothing else
  differs, so the precondition (finite inputs) is never opened.

  The modules: RowNet (the network of one row, and the layer identities), KerPay (the body's values at an entry),
  KerBlock (one point's result block, then the 512 blocks assembled into the result array), RefNet (the reference,
  operation by operation). The three frames are the generated ones; the idealization rewrote nothing, so
  `preserves` is `True`.
-/
import proofs.«104367_j89790586290648_1_alg».proof.Defs
import proofs.«104367_j89790586290648_1_alg».proof.Proof.Gen.Kernel
import proofs.«104367_j89790586290648_1_alg».proof.Proof.Gen.Kernel.Frame
import proofs.«104367_j89790586290648_1_alg».proof.Proof.Gen.KernelIdeal
import proofs.«104367_j89790586290648_1_alg».proof.Proof.Gen.KernelIdeal.Frame
import proofs.«104367_j89790586290648_1_alg».proof.Proof.Gen.KernelIdeal.Value
import proofs.«104367_j89790586290648_1_alg».proof.Proof.Gen.ReferenceIdeal
import proofs.«104367_j89790586290648_1_alg».proof.Proof.Gen.ReferenceIdeal.Run
import proofs.«104367_j89790586290648_1_alg».proof.Proof.Gen.ReferenceIdeal.Read
import proofs.«104367_j89790586290648_1_alg».proof.Proof.Gen.Pre_finite_inputs
import proofs.«104367_j89790586290648_1_alg».proof.Proof.KerBlock
import proofs.«104367_j89790586290648_1_alg».proof.Proof.RefNet
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the row network of every row: the kernel block by block (`KerValue.run`), the reference
    operation by operation (`RefValue.ref_eq`), over the same transposed weight matrices. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.KerValue.result m c
  rw [Cert.ReferenceIdeal.Read.val_main_v21_eq, Cert.ReferenceIdeal.RefValue.ref_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2, Cert.KernelIdeal.KerValue.result_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
